-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x4096 : Shape := ⟨2, ![1, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S1x4096 .f32) (main_arg3 : FVec F S1x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_v13 main_v16
-- ==== Kernel.lean ====
abbrev S8192x4096 : Shape := ⟨2, ![8192, 4096]⟩
abbrev S1x4096 : Shape := ⟨2, ![1, 4096]⟩
abbrev S1x8192 : Shape := ⟨2, ![1, 8192]⟩
abbrev S256x4096 : Shape := ⟨2, ![256, 4096]⟩
abbrev S1x256 : Shape := ⟨2, ![1, 256]⟩
abbrev S_ : Shape := ⟨0, ![]⟩
abbrev S1 : Shape := ⟨1, ![1]⟩
abbrev S1x1 : Shape := ⟨2, ![1, 1]⟩
abbrev S1x1x8192 : Shape := ⟨3, ![1, 1, 8192]⟩
abbrev S1x2x8192 : Shape := ⟨3, ![1, 2, 8192]⟩

abbrev nBuf : Space → Nat
  | .hbm => 37
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S1x4096, .f32⟩
  | .hbm, ⟨4, _⟩ => ⟨S1x8192, .f32⟩
  | .hbm, ⟨5, _⟩ => ⟨S1x8192, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x8192, .f32⟩
  | .hbm, ⟨19, _⟩ => ⟨S1x8192, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x8192, .f32⟩
  | .hbm, ⟨33, _⟩ => ⟨S1x8192, .f32⟩
  | .hbm, ⟨34, _⟩ => ⟨S1x1x8192, .f32⟩
  | .hbm, ⟨35, _⟩ => ⟨S1x1x8192, .f32⟩
  | .hbm, ⟨36, _⟩ => ⟨S1x2x8192, .f32⟩
  | .local _ .vmem, ⟨0, _⟩ => ⟨S1x4096, .f32⟩
  | .local _ .vmem, ⟨1, _⟩ => ⟨S1x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x4096_S1x4096_0_0 : ∀ a, (![0, 0] : Fin 2 → Nat) a + S1x4096.size a ≤ S1x4096.size a
  h_S1x4096 : 0 < S1x4096.numel
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  reducesTo_S1x8192_S1_d1 : S1x8192.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  bcast_S1x8192_S1x1x8192_0_2 : S1x8192.BroadcastsInDim S1x1x8192 (![0, 2] : Fin 2 → Fin S1x1x8192.rank)
  concatenates_S1x1x8192_S1x1x8192_S1x2x8192_d1 : Shape.Concatenates [S1x1x8192, S1x1x8192] S1x2x8192 1
  dot_S1x4096_S256x4096_S1x256_1_1_0_0_n_n_wf : DotDims.WF S1x4096 S256x4096 S1x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)

variable [Facts₀]

def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf

abbrev win0_0 : Pipeline.Window sig grid0 :=
  Pipeline.Window.ofSpec (Memref.whole main_arg2) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x4096 : Shape := ⟨2, ![1, 4096]⟩
abbrev S1x8192 : Shape := ⟨2, ![1, 8192]⟩
abbrev S_ : Shape := ⟨0, ![]⟩
abbrev S1 : Shape := ⟨1, ![1]⟩
abbrev S1x1 : Shape := ⟨2, ![1, 1]⟩
abbrev S1x1x8192 : Shape := ⟨3, ![1, 1, 8192]⟩
abbrev S1x2x8192 : Shape := ⟨3, ![1, 2, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S1x4096, .f32⟩
  | .hbm, ⟨4, _⟩ => ⟨S1x8192, .f32⟩
  | .hbm, ⟨5, _⟩ => ⟨S1x8192, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x8192, .f32⟩
  | .hbm, ⟨19, _⟩ => ⟨S1x8192, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x8192, .f32⟩
  | .hbm, ⟨33, _⟩ => ⟨S1x8192, .f32⟩
  | .hbm, ⟨34, _⟩ => ⟨S1x1x8192, .f32⟩
  | .hbm, ⟨35, _⟩ => ⟨S1x1x8192, .f32⟩
  | .hbm, ⟨36, _⟩ => ⟨S1x2x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S1x8192_S1_d1 : S1x8192.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  bcast_S1x8192_S1x1x8192_0_2 : S1x8192.BroadcastsInDim S1x1x8192 (![0, 2] : Fin 2 → Fin S1x1x8192.rank)
  concatenates_S1x1x8192_S1x1x8192_S1x2x8192_d1 : Shape.Concatenates [S1x1x8192, S1x1x8192] S1x2x8192 1
  dot_S1x4096_S8192x4096_S1x8192_1_1_0_0_n_n_wf : DotDims.WF S1x4096 S8192x4096 S1x8192 [1] [1] [0] [0] [] []

variable [Facts₀]

def dot_S1x4096_S8192x4096_S1x8192_1_1_0_0_n_n : DotDims S1x4096 S8192x4096 S1x8192 where
  lhsContracting := [1]
  rhsContracting := [1]
  lhsNonContracting := [0]
  rhsNonContracting := [0]
  lhsBatch := []
  rhsBatch := []
  wf := dot_S1x4096_S8192x4096_S1x8192_1_1_0_0_n_n_wf

class Facts : Prop extends Facts₀ where

variable [Facts]
-- ==== Proof.Spec.lean ====
/-
  What both programs compute, as one function of the four argument arrays.

  A score row is the product of a weight row with the transpose of a matrix:
  `scores w g` at column `s` is `Σ_d w[0, d] · g[s, d]`, a finite sum of products of extended reals.
  Each score row is then normalised along its one long axis by the softmax as jax lowers it — subtract the
  row maximum (started from -∞), exponentiate, divide by the row sum (started from 0) — and the two
  normalised rows are stacked on a new middle axis.  The normalisation and the stacking are stated for any
  float family, in the operations' own vocabulary; only the scores need the extended reals.
-/
import Idealize.ShloMosaic.PureOps
import Idealize.ShloMosaic.PureOps.Ideal
import Idealize.ShloMosaic.Lib.ValueIdx

noncomputable section

namespace Cert.Scores

open Idealize.ShloMosaic Idealize.ShloMosaic.ValueIdx

/-- The shapes: a weight row, the matrix, a score row, a scalar, the reduced row in its two keep-dims forms,
    a score row with the stacking axis, and the stacked result. -/
abbrev Wrow : Shape := ⟨2, ![1, 4096]⟩
abbrev Mat : Shape := ⟨2, ![8192, 4096]⟩
abbrev Row : Shape := ⟨2, ![1, 8192]⟩
abbrev Scal : Shape := ⟨0, ![]⟩
abbrev Red : Shape := ⟨1, ![1]⟩
abbrev RedK : Shape := ⟨2, ![1, 1]⟩
abbrev RowK : Shape := ⟨3, ![1, 1, 8192]⟩
abbrev Stack : Shape := ⟨3, ![1, 2, 8192]⟩

/-- The score row of a weight row against a matrix: column `s` is the weight row dotted with row `s`. -/
def scores (w : Wrow.Idx → EReal) (g : Mat.Idx → EReal) : Row.Idx → EReal :=
  fun j => ∑ k : Fin 4096, w (ix2 (0 : Fin 1) k) * g (ix2 (⟨(j 1).val, (j 1).isLt⟩ : Fin 8192) k)

/-! The shape relations the normalisation's operations ask for. -/

theorem red : Row.ReducesTo [1] Red := by decide
theorem scal : 0 < Scal.numel := by decide
theorem b0 : Scal.BroadcastsInDim Red (![] : Fin 0 → Fin Red.rank) := by decide
theorem b1 : Red.BroadcastsInDim RedK (![0] : Fin 1 → Fin RedK.rank) := by decide
theorem b2 : RedK.BroadcastsInDim Row (![0, 1] : Fin 2 → Fin Row.rank) := by decide
theorem b3 : Row.BroadcastsInDim RowK (![0, 2] : Fin 2 → Fin RowK.rank) := by decide
theorem cat : Shape.Concatenates [RowK, RowK] Stack 1 := by decide

variable {F : FTy → Type} [FloatOps F]

/-- The row maximum, started from -∞ (the word `0xFF800000`). -/
def rowMax (p : FVec F Row .f32) : FVec F Red .f32 :=
  maximumf (broadcastInDim Red ![] b0 (constant Scal .f32 0xFF800000#32))
    (Host.reduce FloatOps.maximumf p (constant Scal .f32 0xFF800000#32) red scal)

/-- The row shifted by its maximum, exponentiated. -/
def expShift (p : FVec F Row .f32) : FVec F Row .f32 :=
  Host.exp (subf p (broadcastInDim Row ![0, 1] b2 (broadcastInDim RedK ![0] b1 (rowMax p))))

/-- The softmax of a row: the shifted exponentials over their sum (started from 0). -/
def softmax (p : FVec F Row .f32) : FVec F Row .f32 :=
  Host.divf (expShift p)
    (broadcastInDim Row ![0, 1] b2 (broadcastInDim RedK ![0] b1
      (Host.reduceAdd (expShift p) (constant Scal .f32 0x00000000#32) red scal)))

/-- Two normalised rows stacked on a new middle axis. -/
def stacked (p q : FVec F Row .f32) : FVec F Stack .f32 :=
  concatenate Stack 1 [⟨RowK, broadcastInDim RowK ![0, 2] b3 (softmax p)⟩,
    ⟨RowK, broadcastInDim RowK ![0, 2] b3 (softmax q)⟩] cat

end Cert.Scores

end
-- ==== Proof.KernelScores.lean ====
/-
  The kernel's two score rows.  The pallas_call walks the long axis in 32 blocks of 256 columns.  At block `t`
  the body multiplies the whole weight row with the transpose of rows `256·t … 256·t + 255` of the matrix,
  into a zero accumulator: at the extended reals column `q` of what it stores is `Σ_d w[0, d] · g[256·t + q, d]`,
  which is column `256·t + q` of `Scores.scores w g`.  Every column lies in exactly the block `⌊s / 256⌋`,
  so after the last write-back each result row is `Scores.scores` of its two arguments.  The host lines after
  the region normalise and stack the two rows: `Scores.stacked`.
-/
import proofs.«127825_j15539191677615_1_alg».proof.Proof.Gen.KernelIdeal.Frame
import proofs.«127825_j15539191677615_1_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.ScoreRows

open Cert.KernelIdeal Cert.KernelIdeal.Gen Cert.Scores Idealize.ShloMosaic.ValueIdx

/-! ## The body's product at a column -/

/-- The body's matrix product: the weight row against a block of 256 matrix rows, contracted on the 4096 axis. -/
abbrev blockDot : DotDims S1x4096 S256x4096 S1x256 := dot_S1x4096_S256x4096_S1x256_1_1_0_0_n_n

theorem lhs_axis0 (i : S1x256.Idx) (q : dot_S1x4096_S256x4096_S1x256_1_1_0_0_n_n.contr.Idx) :
    (dot_S1x4096_S256x4096_S1x256_1_1_0_0_n_n.lhsIdx i q 0).val = (i 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
theorem lhs_axis1 (i : S1x256.Idx) (q : dot_S1x4096_S256x4096_S1x256_1_1_0_0_n_n.contr.Idx) :
    (dot_S1x4096_S256x4096_S1x256_1_1_0_0_n_n.lhsIdx i q 1).val = (q ⟨0, by decide⟩).val :=
  dot_S1x4096_S256x4096_S1x256_1_1_0_0_n_n.lhsIdx_val_of_single rfl i q
theorem rhs_axis0 (i : S1x256.Idx) (q : dot_S1x4096_S256x4096_S1x256_1_1_0_0_n_n.contr.Idx) :
    (dot_S1x4096_S256x4096_S1x256_1_1_0_0_n_n.rhsIdx i q 0).val = (i 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl
theorem rhs_axis1 (i : S1x256.Idx) (q : dot_S1x4096_S256x4096_S1x256_1_1_0_0_n_n.contr.Idx) :
    (dot_S1x4096_S256x4096_S1x256_1_1_0_0_n_n.rhsIdx i q 1).val = (q ⟨0, by decide⟩).val :=
  dot_S1x4096_S256x4096_S1x256_1_1_0_0_n_n.rhsIdx_val_of_single rfl i q

/-- Where column `i` of the product reads the weight row at contraction position `k`, -/
abbrev wAt (i : S1x256.Idx) (k : Fin 4096) : S1x4096.Idx := fun a => match a with
  | ⟨0, _⟩ => ⟨(i 0).val, (i 0).isLt⟩
  | ⟨1, _⟩ => ⟨k.val, k.isLt⟩
/-- and where it reads the block of matrix rows. -/
abbrev gAt (i : S1x256.Idx) (k : Fin 4096) : S256x4096.Idx := fun a => match a with
  | ⟨0, _⟩ => ⟨(i 1).val, (i 1).isLt⟩
  | ⟨1, _⟩ => ⟨k.val, k.isLt⟩

/-- The product into the zero accumulator, at a column: the sum over the contracted axis. -/
theorem blockDot_apply (w : FVec Ideal S1x4096 .f32) (g : FVec Ideal S256x4096 .f32) (i : S1x256.Idx) :
    matmul (F := Ideal) (φ₁ := .f32) (φ₂ := .f32) dot_S1x4096_S256x4096_S1x256_1_1_0_0_n_n (some .fp32) w g (constant S1x256 .f32 0x00000000#32) i
      = ∑ k : Fin 4096, w (wAt i k) * g (gAt i k) := by
  simp only [matmul]
  rw [Ideal.matmul_constant_zero_apply, ← Equiv.sum_comp (ValueIdx.contrEquiv1 dot_S1x4096_S256x4096_S1x256_1_1_0_0_n_n 4096 rfl rfl).symm]
  refine Finset.sum_congr rfl fun k _ => ?_
  have hk := ValueIdx.contrEquiv1_symm_val dot_S1x4096_S256x4096_S1x256_1_1_0_0_n_n 4096 rfl rfl k
  have el : dot_S1x4096_S256x4096_S1x256_1_1_0_0_n_n.lhsIdx i ((ValueIdx.contrEquiv1 dot_S1x4096_S256x4096_S1x256_1_1_0_0_n_n 4096 rfl rfl).symm k) = wAt i k := funext fun a => Fin.ext (by
    match a with
    | ⟨0, _⟩ => exact lhs_axis0 _ _
    | ⟨1, _⟩ => exact (lhs_axis1 _ _).trans hk)
  have er : dot_S1x4096_S256x4096_S1x256_1_1_0_0_n_n.rhsIdx i ((ValueIdx.contrEquiv1 dot_S1x4096_S256x4096_S1x256_1_1_0_0_n_n 4096 rfl rfl).symm k) = gAt i k := funext fun a => Fin.ext (by
    match a with
    | ⟨0, _⟩ => exact rhs_axis0 _ _
    | ⟨1, _⟩ => exact (rhs_axis1 _ _).trans hk)
  rw [el, er]

theorem pay1_apply (w : Vec Ideal S1x4096 .f32) (g : Vec Ideal S256x4096 .f32) (i : S1x256.Idx) :
    k0_pay1 (F := Ideal) w g i = ∑ k : Fin 4096, w (wAt i k) * g (gAt i k) := blockDot_apply w g i
theorem pay2_apply (w : Vec Ideal S1x4096 .f32) (g : Vec Ideal S256x4096 .f32) (i : S1x256.Idx) :
    k0_pay2 (F := Ideal) w g i = ∑ k : Fin 4096, w (wAt i k) * g (gAt i k) := blockDot_apply w g i

end Cert.KernelIdeal.ScoreRows

/-! ## What a point writes back -/

namespace Cert.KernelIdeal.ScoreRows

open Cert.KernelIdeal Cert.KernelIdeal.Gen Cert.Scores Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 points: the weight rows stay at block (0, 0); the matrices' row block and
    the results' column block are the point's number. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- Point `t` writes back, into the first result row, columns `256·t … 256·t + 255` of the score row of the first
    weight row against the first matrix. -/
theorem flushed4_eq (c : Dev nD) (t : Fin cfg0.N) :
    (dats m 0 c).flushed 4 t = ((cfg0.win 4).blk t).view.read (Elt Ideal) (scores (V m c main_arg2) (V m c main_arg0)) := by
  show (cfg0.win 4).cut (grid0.coords t) ((dats m 0 c).after 4 t) = _
  rw [after0_4]
  unfold out0_4
  rw [View.canon_unit_zero hz]
  simp only [View.ld_unit_zero (S := S1x4096) hz, View.ld_unit_zero (S := S256x4096) hz]
  obtain ⟨e00, e01, -, -, e20, e21, -, -, e40, e41, -, -⟩ := idx_facts t
  funext j
  show k0_pay1 (F := Ideal) (iblk m c 0 t) (iblk m c 2 t) j = scores (V m c main_arg2) (V m c main_arg0) (((cfg0.win 4).blk t).view.emb j)
  refine (pay1_apply (iblk m c 0 t) (iblk m c 2 t) j).trans ?_
  unfold scores
  refine Finset.sum_congr rfl fun k _ => ?_
  have hw : iblk m c 0 t (wAt j k) = V m c main_arg2 (ix2 (0 : Fin 1) k) := by
    show V m c main_arg2 (((cfg0.win 0).blk t).view.emb (wAt j k)) = _
    refine congrArg _ (funext fun a => Fin.ext ?_)
    match a with
    | ⟨0, _⟩ => show win0_0.index t (0 : Fin 2) * 1 + 1 * (j 0).val = 0; have h0 : (j 0).val < 1 := (j 0).isLt; omega
    | ⟨1, _⟩ => show win0_0.index t (1 : Fin 2) * 4096 + 1 * k.val = k.val; omega
  have hg : iblk m c 2 t (gAt j k) = V m c main_arg0 (ix2 (⟨((((cfg0.win 4).blk t).view.emb j) 1).val, ((((cfg0.win 4).blk t).view.emb j) 1).isLt⟩ : Fin 8192) k) := by
    show V m c main_arg0 (((cfg0.win 2).blk t).view.emb (gAt j k)) = _
    refine congrArg _ (funext fun a => Fin.ext ?_)
    match a with
    | ⟨0, _⟩ => show win0_2.index t (0 : Fin 2) * 256 + 1 * (j 1).val = win0_4.index t (1 : Fin 2) * 256 + 1 * (j 1).val; omega
    | ⟨1, _⟩ => show win0_2.index t (1 : Fin 2) * 4096 + 1 * k.val = k.val; omega
  rw [hw, hg]

/-- The same for the second result row, of the second weight row and matrix. -/
theorem flushed5_eq (c : Dev nD) (t : Fin cfg0.N) :
    (dats m 0 c).flushed 5 t = ((cfg0.win 5).blk t).view.read (Elt Ideal) (scores (V m c main_arg3) (V m c main_arg1)) := by
  show (cfg0.win 5).cut (grid0.coords t) ((dats m 0 c).after 5 t) = _
  rw [after0_5]
  unfold out0_5
  rw [View.canon_unit_zero hz]
  simp only [View.ld_unit_zero (S := S1x4096) hz, View.ld_unit_zero (S := S256x4096) hz]
  obtain ⟨-, -, e10, e11, -, -, e30, e31, -, -, e50, e51⟩ := idx_facts t
  funext j
  show k0_pay2 (F := Ideal) (iblk m c 1 t) (iblk m c 3 t) j = scores (V m c main_arg3) (V m c main_arg1) (((cfg0.win 5).blk t).view.emb j)
  refine (pay2_apply (iblk m c 1 t) (iblk m c 3 t) j).trans ?_
  unfold scores
  refine Finset.sum_congr rfl fun k _ => ?_
  have hw : iblk m c 1 t (wAt j k) = V m c main_arg3 (ix2 (0 : Fin 1) k) := by
    show V m c main_arg3 (((cfg0.win 1).blk t).view.emb (wAt j k)) = _
    refine congrArg _ (funext fun a => Fin.ext ?_)
    match a with
    | ⟨0, _⟩ => show win0_1.index t (0 : Fin 2) * 1 + 1 * (j 0).val = 0; have h0 : (j 0).val < 1 := (j 0).isLt; omega
    | ⟨1, _⟩ => show win0_1.index t (1 : Fin 2) * 4096 + 1 * k.val = k.val; omega
  have hg : iblk m c 3 t (gAt j k) = V m c main_arg1 (ix2 (⟨((((cfg0.win 5).blk t).view.emb j) 1).val, ((((cfg0.win 5).blk t).view.emb j) 1).isLt⟩ : Fin 8192) k) := by
    show V m c main_arg1 (((cfg0.win 3).blk t).view.emb (gAt j k)) = _
    refine congrArg _ (funext fun a => Fin.ext ?_)
    match a with
    | ⟨0, _⟩ => show win0_3.index t (0 : Fin 2) * 256 + 1 * (j 1).val = win0_5.index t (1 : Fin 2) * 256 + 1 * (j 1).val; omega
    | ⟨1, _⟩ => show win0_3.index t (1 : Fin 2) * 4096 + 1 * k.val = k.val; omega
  rw [hw, hg]

/-! ## The blocks cover the rows -/

theorem mem_blk4 (t : Fin cfg0.N) (i : S1x8192.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v0_0).slice (win0_4.rect t)).set ↔ _
  rw [View.set_slice_whole, Rect.mem_set_unit]
  exact Iff.rfl

theorem mem_blk5 (t : Fin cfg0.N) (i : S1x8192.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v0_1).slice (win0_5.rect t)).set ↔ _
  rw [View.set_slice_whole, Rect.mem_set_unit]
  exact Iff.rfl

/-- Column `s` of a result row lies in the block of point `⌊s / 256⌋`. -/
theorem cover4 (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 32 := N_0
  obtain ⟨t, ht⟩ : ∃ t : Fin cfg0.N, t.val = (i 1).val / 256 := ⟨⟨(i 1).val / 256, by rw [hN]; omega⟩, rfl⟩
  obtain ⟨-, -, -, -, -, -, -, -, e40, e41, -, -⟩ := idx_facts t
  refine ⟨t, flush0_4 t, ?_⟩
  rw [mem_blk4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 256 ≤ (i 1).val ∧ (i 1).val < win0_4.index t (1 : Fin 2) * 256 + 256; omega

theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 32 := N_0
  obtain ⟨t, ht⟩ : ∃ t : Fin cfg0.N, t.val = (i 1).val / 256 := ⟨⟨(i 1).val / 256, by rw [hN]; omega⟩, rfl⟩
  obtain ⟨-, -, -, -, -, -, -, -, -, -, e50, e51⟩ := idx_facts t
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 256 ≤ (i 1).val ∧ (i 1).val < win0_5.index t (1 : Fin 2) * 256 + 256; omega

/-- After the last write-back each result row is the score row of its arguments. -/
theorem final4 (c : Dev nD) : (dats m 0 c).arrAt 4 cfg0.N = scores (V m c main_arg2) (V m c main_arg0) :=
  (dats m 0 c).arrAt_eq_of_cover 4 (scores (V m c main_arg2) (V m c main_arg0)) (fun t _ => flushed4_eq m c t) cover4

theorem final5 (c : Dev nD) : (dats m 0 c).arrAt 5 cfg0.N = scores (V m c main_arg3) (V m c main_arg1) :=
  (dats m 0 c).arrAt_eq_of_cover 5 (scores (V m c main_arg3) (V m c main_arg1)) (fun t _ => flushed5_eq m c t) cover5

/-! ## The host lines after the region, and the run -/

set_option maxHeartbeats 4000000 in
/-- The host lines after the region leave, in the program's result, the two result rows normalised and stacked. -/
theorem tail_eq (c : Dev nD) :
    Pipeline.afterTail₀ cfgs (dats m) 0 (V0 m) [hostOps1] c main_v25
      = stacked (F := Ideal) ((dats m 0 c).arrAt 4 cfg0.N) ((dats m 0 c).arrAt 5 cfg0.N) := by
  unfold Pipeline.afterTail₀
  show StableHlo.after hostOps1 _ (Proc.devRef .tc main_v25) = _
  after_results
  rw [Pipeline.withArrays_arr spec0 launch0.win.arr_inj c _ _ 4, Pipeline.withArrays_arr spec0 launch0.win.arr_inj c _ _ 5]
  rfl

/-- The kernel's run: its result is the two score rows, normalised and stacked; the arguments are unchanged. -/
theorem run : θ_run defs (onTc (τ := τ) (main (F := Ideal))) ⟨m, fun _ => 0, ρ⟩ fun r => ∀ c : Dev nD,
      r.2.mem ((c.tc : Thread nD τ).loc main_v25)
        = stacked (F := Ideal) (scores (m ((c.tc : Thread nD τ).loc main_arg2)) (m ((c.tc : Thread nD τ).loc main_arg0)))
            (scores (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (by decide)).trans ((tail_eq m c).trans (by rw [final4, final5]; rfl)),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.ScoreRows

end
-- ==== Proof.RefScores.lean ====
/-
  The reference's two score rows.  jnp's einsum "od,sd->os" is one `dot_general` contracting the 4096 axis of the weight
  row with the 4096 axis of the matrix: at the extended reals column `s` of it is `Σ_d w[0, d] · g[s, d]`, which is
  `Scores.scores w g` at `s`.  The rest of the reference is the normalisation and the stacking, `Scores.stacked`.
-/
import proofs.«127825_j15539191677615_1_alg».proof.Proof.RefRun
import proofs.«127825_j15539191677615_1_alg».proof.Proof.Spec
import Idealize.ShloMosaic.Lib.ValueIdx
import Idealize.ShloMosaic.PureOps.Ideal.Laws

noncomputable section

open Idealize.ShloMosaic Idealize.ShloMosaic.TcCoe Idealize.SL.Sem

namespace Cert.ReferenceIdeal.ScoreRows

open Cert.ReferenceIdeal Cert.ReferenceIdeal.Gen Cert.Scores Idealize.ShloMosaic.ValueIdx

/-! ## The whole product at a column -/

theorem lhs_axis0 (i : S1x8192.Idx) (q : dot_S1x4096_S8192x4096_S1x8192_1_1_0_0_n_n.contr.Idx) :
    (dot_S1x4096_S8192x4096_S1x8192_1_1_0_0_n_n.lhsIdx i q 0).val = (i 0).val := by
  unfold DotDims.lhsIdx
  rw [dif_neg (show ¬(0 : Fin S1x4096.rank) ∈ dot_S1x4096_S8192x4096_S1x8192_1_1_0_0_n_n.lhsBatch by decide), dif_pos (show (0 : Fin S1x4096.rank) ∈ dot_S1x4096_S8192x4096_S1x8192_1_1_0_0_n_n.lhsNonContracting by decide)]
  rfl
theorem lhs_axis1 (i : S1x8192.Idx) (q : dot_S1x4096_S8192x4096_S1x8192_1_1_0_0_n_n.contr.Idx) :
    (dot_S1x4096_S8192x4096_S1x8192_1_1_0_0_n_n.lhsIdx i q 1).val = (q ⟨0, by decide⟩).val :=
  dot_S1x4096_S8192x4096_S1x8192_1_1_0_0_n_n.lhsIdx_val_of_single rfl i q
theorem rhs_axis0 (i : S1x8192.Idx) (q : dot_S1x4096_S8192x4096_S1x8192_1_1_0_0_n_n.contr.Idx) :
    (dot_S1x4096_S8192x4096_S1x8192_1_1_0_0_n_n.rhsIdx i q 0).val = (i 1).val := by
  unfold DotDims.rhsIdx
  rw [dif_neg (show ¬(0 : Fin S8192x4096.rank) ∈ dot_S1x4096_S8192x4096_S1x8192_1_1_0_0_n_n.rhsBatch by decide), dif_pos (show (0 : Fin S8192x4096.rank) ∈ dot_S1x4096_S8192x4096_S1x8192_1_1_0_0_n_n.rhsNonContracting by decide)]
  rfl
theorem rhs_axis1 (i : S1x8192.Idx) (q : dot_S1x4096_S8192x4096_S1x8192_1_1_0_0_n_n.contr.Idx) :
    (dot_S1x4096_S8192x4096_S1x8192_1_1_0_0_n_n.rhsIdx i q 1).val = (q ⟨0, by decide⟩).val :=
  dot_S1x4096_S8192x4096_S1x8192_1_1_0_0_n_n.rhsIdx_val_of_single rfl i q

/-- jnp's product of the weight row with the transposed matrix is the score row. -/
theorem dot_eq_scores (w : FVec Ideal S1x4096 .f32) (g : FVec Ideal S8192x4096 .f32) :
    Host.dotGeneral (F := Ideal) dot_S1x4096_S8192x4096_S1x8192_1_1_0_0_n_n none w g = scores w g := by
  funext i
  simp only [Host.dotGeneral]
  rw [Ideal.dotGeneral_apply, ← Equiv.sum_comp (ValueIdx.contrEquiv1 dot_S1x4096_S8192x4096_S1x8192_1_1_0_0_n_n 4096 rfl rfl).symm]
  unfold scores
  refine Finset.sum_congr rfl fun k _ => ?_
  have hk := ValueIdx.contrEquiv1_symm_val dot_S1x4096_S8192x4096_S1x8192_1_1_0_0_n_n 4096 rfl rfl k
  have el : dot_S1x4096_S8192x4096_S1x8192_1_1_0_0_n_n.lhsIdx i ((ValueIdx.contrEquiv1 dot_S1x4096_S8192x4096_S1x8192_1_1_0_0_n_n 4096 rfl rfl).symm k) = ix2 (0 : Fin 1) k := funext fun a => Fin.ext (by
    match a with
    | ⟨0, _⟩ => exact (lhs_axis0 _ _).trans (by have h0 : (i 0).val < 1 := (i 0).isLt; show (i 0).val = 0; omega)
    | ⟨1, _⟩ => exact (lhs_axis1 _ _).trans hk)
  have er : dot_S1x4096_S8192x4096_S1x8192_1_1_0_0_n_n.rhsIdx i ((ValueIdx.contrEquiv1 dot_S1x4096_S8192x4096_S1x8192_1_1_0_0_n_n 4096 rfl rfl).symm k) = ix2 (⟨(i 1).val, (i 1).isLt⟩ : Fin 8192) k := funext fun a => Fin.ext (by
    match a with
    | ⟨0, _⟩ => exact rhs_axis0 _ _
    | ⟨1, _⟩ => exact (rhs_axis1 _ _).trans hk)
  rw [el, er]

/-! ## The run, read -/

variable (m : (ℓ : Loc nD τ sig) → Buf (Elt Ideal) ℓ) (ρ : Dev nD → PrngReg)

/-- The reference's run: its result is the two score rows, normalised and stacked; the arguments are unchanged. -/
theorem run : θ_run defs (onTc (τ := τ) (main (F := Ideal))) ⟨m, fun _ => 0, ρ⟩ fun r => ∀ c : Dev nD,
      r.2.mem ((c.tc : Thread nD τ).loc main_v26)
        = stacked (F := Ideal) (scores (m ((c.tc : Thread nD τ).loc main_arg2)) (m ((c.tc : Thread nD τ).loc main_arg0)))
            (scores (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      rw [← dot_eq_scores, ← dot_eq_scores]
      rfl), (h c).2⟩)
    (Cert.ReferenceIdeal.RunRead.run (F := Ideal) m ρ)

end Cert.ReferenceIdeal.ScoreRows

end
-- ==== Proof.lean ====
/-
  Two score rows, normalised and stacked: the kernel against its jnp reference, over the extended reals.

  Both programs take two matrices `G₁, G₂` of 8192 rows by 4096 columns and two weight rows `w₁, w₂` of 4096 entries, and
  return `softmax(wᵢ · Gᵢᵀ)` for `i = 1, 2`, stacked on a new middle axis.  The kernel computes each score row
  `pᵢ[s] = Σ_d wᵢ[d] · Gᵢ[s, d]` in 32 blocks of 256 columns, each block one matrix product into a zero accumulator;
  the reference computes it as one `dot_general`.  At the extended reals both are the same finite sum of products at
  every column (`Scores.scores`); no law beyond re-indexing the contraction is used, so the inputs' finiteness is never
  opened.  The softmax and the stacking are the same host operations in both programs, literal for literal
  (`Scores.stacked`).  The idealization rewrote nothing, so `preserves` is trivial.  The three frames are the generated
  ones, the reference's being its run with the result dropped.
-/
import proofs.«127825_j15539191677615_1_alg».proof.Defs
import proofs.«127825_j15539191677615_1_alg».proof.Proof.Gen.Kernel
import proofs.«127825_j15539191677615_1_alg».proof.Proof.Gen.Kernel.Skeleton
import proofs.«127825_j15539191677615_1_alg».proof.Proof.Gen.Kernel.Launch
import proofs.«127825_j15539191677615_1_alg».proof.Proof.Gen.Kernel.Points
import proofs.«127825_j15539191677615_1_alg».proof.Proof.Gen.Kernel.Frame
import proofs.«127825_j15539191677615_1_alg».proof.Proof.Gen.KernelIdeal
import proofs.«127825_j15539191677615_1_alg».proof.Proof.Gen.KernelIdeal.Skeleton
import proofs.«127825_j15539191677615_1_alg».proof.Proof.Gen.KernelIdeal.Launch
import proofs.«127825_j15539191677615_1_alg».proof.Proof.Gen.KernelIdeal.Points
import proofs.«127825_j15539191677615_1_alg».proof.Proof.Gen.KernelIdeal.Frame
import proofs.«127825_j15539191677615_1_alg».proof.Proof.Gen.ReferenceIdeal
import proofs.«127825_j15539191677615_1_alg».proof.Proof.Gen.Pre_finite_inputs
import proofs.«127825_j15539191677615_1_alg».proof.Proof.KernelScores
import proofs.«127825_j15539191677615_1_alg».proof.Proof.RefScores
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ScoreRows.run m ρ)

/-- From memories agreeing on the four arguments both runs end with the two score rows normalised and stacked:
    one term, once the arguments' agreement is rewritten. -/
theorem algebraic : Cert.algebraic_KernelIdeal_ReferenceIdeal := by
  intro m ρ m' ρ' _ hagree
  refine ⟨_, Cert.KernelIdeal.ScoreRows.run m ρ, ?_⟩
  refine (θ_run Cert.ReferenceIdeal.defs _ _).mono (fun _ h c => ⟨(h c).1.trans ?_, (h c).2⟩)
    (Cert.ReferenceIdeal.ScoreRows.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
